-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  main_v3
-- ==== Kernel.lean ====
abbrev S8x8192x256 : Shape := ⟨3, ![8, 8192, 256]⟩
abbrev S8x1x256 : Shape := ⟨3, ![8, 1, 256]⟩
abbrev S1x8192x256 : Shape := ⟨3, ![1, 8192, 256]⟩
abbrev S1x1x256 : Shape := ⟨3, ![1, 1, 256]⟩
abbrev S8192x256 : Shape := ⟨2, ![8192, 256]⟩
abbrev S256 : Shape := ⟨1, ![256]⟩
abbrev S8x256 : Shape := ⟨2, ![8, 256]⟩
abbrev S_ : Shape := ⟨0, ![]⟩

abbrev nBuf : Space → Nat
  | .hbm => 21
  | .vmem => 6
  | .smem => 0
  | _ => 0

abbrev bufTy : (tb : Table) → Fin (tcTables nBuf tb) → BufTy
  | .hbm, ⟨0, _⟩ => ⟨S8x8192x256, .f32⟩
  | .hbm, ⟨1, _⟩ => ⟨S8x1x256, .f32⟩
  | .hbm, ⟨2, _⟩ => ⟨S8x1x256, .f32⟩
  | .hbm, ⟨3, _⟩ => ⟨S8x256, .f32⟩
  | .hbm, ⟨4, _⟩ => ⟨S8x256, .f32⟩
  | .hbm, ⟨5, _⟩ => ⟨S_, .f32⟩
  | .hbm, ⟨6, _⟩ => ⟨S8x256, .f32⟩
  | .hbm, ⟨7, _⟩ => ⟨S8x256, .f32⟩
  | .hbm, ⟨8, _⟩ => ⟨S_, .f32⟩
  | .hbm, ⟨9, _⟩ => ⟨S8x256, .f32⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x8192x256, .f32⟩
  | .local _ .vmem, ⟨1, _⟩ => ⟨S1x8192x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  reduces_S8192x256_S256 : S8192x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x1x256 : S256.ShapeCasts S1x1x256
  shapeCasts_S8x1x256_S8x256 : S8x1x256.ShapeCasts S8x256
  bcast_S_S8x256 : S_.BroadcastsInDim S8x256 (![] : Fin 0 → Fin S8x256.rank)
  reducesTo_S8x256_S_d0_1 : S8x256.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x256.size a ≤ S8x8192x256.size a
  hwx0_0 : ∀ i : grid0.Coords, EltTy.bits .f32 = 32 ∨ (Rect.block (s := S8x8192x256) S1x8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S8x1x256.size a
  hwx0_1 : ∀ i : grid0.Coords, EltTy.bits .f32 = 32 ∨ (Rect.block (s := S8x1x256) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .f32 = 32 ∨ (Rect.block (s := S8x1x256) S1x1x256.size (cc0_transform_2 i) (hinb0_2 i)).WholeWords (EltTy.packing .f32)

variable [Facts₀]

abbrev win0_0 : Pipeline.Window sig grid0 :=
  Pipeline.Window.ofSpec (Memref.whole main_arg0) S1x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x256 : Shape := ⟨3, ![8, 8192, 256]⟩
abbrev S_ : Shape := ⟨0, ![]⟩
abbrev S8x256 : Shape := ⟨2, ![8, 256]⟩
abbrev S8x1x256 : Shape := ⟨3, ![8, 1, 256]⟩

abbrev nBuf : Space → Nat
  | .hbm => 32
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S_, .i32⟩
  | .hbm, ⟨2, _⟩ => ⟨S_, .f32⟩
  | .hbm, ⟨3, _⟩ => ⟨S8x256, .f32⟩
  | .hbm, ⟨4, _⟩ => ⟨S8x1x256, .f32⟩
  | .hbm, ⟨5, _⟩ => ⟨S_, .f32⟩
  | .hbm, ⟨6, _⟩ => ⟨S8x1x256, .f32⟩
  | .hbm, ⟨7, _⟩ => ⟨S8x1x256, .f32⟩
  | .hbm, ⟨8, _⟩ => ⟨S8x8192x256, .f32⟩
  | .hbm, ⟨9, _⟩ => ⟨S8x8192x256, .f32⟩
  | .hbm, ⟨10, _⟩ => ⟨S8x8192x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S8x256, .f32⟩
  | .hbm, ⟨23, _⟩ => ⟨S8x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_cst_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_cst_1 : Ref sig .tc := ⟨.hbm, 12, rfl⟩
abbrev main_call0_v8 : Ref sig .tc := ⟨.hbm, 13, rfl⟩
abbrev main_call0_cst_2 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_cst_3 : Ref sig .tc := ⟨.hbm, 18, rfl⟩
abbrev main_call0_v12 : Ref sig .tc := ⟨.hbm, 19, rfl⟩
abbrev main_call0_cst_4 : Ref sig .tc := ⟨.hbm, 20, rfl⟩
abbrev main_call0_call0_v0 : Ref sig .tc := ⟨.hbm, 21, rfl⟩
abbrev main_call0_call0_v1 : Ref sig .tc := ⟨.hbm, 22, rfl⟩
abbrev main_v0 : Ref sig .tc := ⟨.hbm, 23, rfl⟩
abbrev main_cst : Ref sig .tc := ⟨.hbm, 24, rfl⟩
abbrev main_cst_0 : Ref sig .tc := ⟨.hbm, 25, rfl⟩
abbrev main_v1 : Ref sig .tc := ⟨.hbm, 26, rfl⟩
abbrev main_cst_1 : Ref sig .tc := ⟨.hbm, 27, rfl⟩
abbrev main_v2 : Ref sig .tc := ⟨.hbm, 28, rfl⟩
abbrev main_cst_2 : Ref sig .tc := ⟨.hbm, 29, rfl⟩
abbrev main_v3 : Ref sig .tc := ⟨.hbm, 30, rfl⟩
abbrev main_v4 : Ref sig .tc := ⟨.hbm, 31, rfl⟩

abbrev nD : Nat := 1
abbrev τ : Topo := Topo.v7x

variable {F : FTy → Type} [FloatOps F]

class Facts₀ : Prop where
  reducesTo_S8x8192x256_S8x256_d1 : S8x8192x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x8192x256_0_1_2 : S8x1x256.BroadcastsInDim S8x8192x256 (![0, 1, 2] : Fin 3 → Fin S8x8192x256.rank)
  bcast_S_S8x256 : S_.BroadcastsInDim S8x256 (![] : Fin 0 → Fin S8x256.rank)
  reducesTo_S8x256_S_d0_1 : S8x256.ReducesTo [0, 1] S_

variable [Facts₀]

class Facts : Prop extends Facts₀ where

variable [Facts]
-- ==== Proof.Finite.lean ====
/-
  The precondition read back: it says that the conjunction, over every entry x of the input array, of the
  comparison |x| < +∞ is true. Hence every entry lies strictly between −∞ and +∞, that is, it is a real number.
-/
import proofs.«139129_j69423851373142_1_alg».proof.Pre_finite_inputs
import proofs.«139129_j69423851373142_1_alg».proof.Proof.Gen.Pre_finite_inputs
import Idealize.ShloMosaic.PureOps.Ideal
import Idealize.ShloMosaic.Lib.ReduceAll
import Idealize.ShloMosaic.Lib.ValueIdx

noncomputable section

namespace Cert.PhaseVar.Finite

open Idealize.ShloMosaic Cert.Pre_finite_inputs

instance : Subsingleton S_.Idx := ⟨fun a b => funext fun d => d.elim0⟩

/-- The pattern with all exponent bits set and no fraction bit denotes +∞. -/
theorem ofBits_inf : Ideal.ofBits .f32 0x7F800000#32 = (⊤ : EReal) := by
  simp [Ideal.ofBits, Ideal.ieee]

/-- Under the precondition every entry of the input is a real number. -/
theorem real_of_pre (x : FVec Ideal S8x8192x256 .f32) (h : fn (F := Ideal) x = fun _ => 1#1) (i : S8x8192x256.Idx) :
    ∃ r : ℝ, x i = (r : EReal) := by
  have h0 := congrFun h ValueIdx.ix0
  dsimp only [fn] at h0
  have hi := Host.reduce_andi_all _ _ _ _ _ h0 i
  have h5 : BitVec.ofBool (decide (max (x i) (-(x i)) < Ideal.ofBits .f32 0x7F800000#32)) = 1#1 := hi
  rw [ofBits_inf] at h5
  have hlt : max (x i) (-(x i)) < (⊤ : EReal) := by
    by_contra hn
    rw [decide_eq_false hn] at h5
    exact absurd h5 (by decide)
  have h1 : x i < ⊤ := lt_of_le_of_lt (le_max_left _ _) hlt
  have h2 : -(x i) < ⊤ := lt_of_le_of_lt (le_max_right _ _) hlt
  have h3 : x i ≠ ⊤ := ne_of_lt h1
  have h4 : x i ≠ ⊥ := fun e => by rw [e] at h2; simp at h2
  exact ⟨(x i).toReal, (EReal.coe_toReal h3 h4).symm⟩

end Cert.PhaseVar.Finite

end
-- ==== Proof.RefRun.lean ====
/-
  The reference program read back as a straight line. Its entry point calls a variance function, which calls a
  selection function; with both unfolded at their call sites the program is thirty-one host operations in a row.
  Run from any memory, every weakly fair execution terminates, the argument is unchanged, and the result buffer
  holds the closing map of the variance array: first the column sums, their quotient by 8192 broadcast back over
  the summed axis, the squared deviations, their column sums, the quotient by 8192 − 0, and a selection that keeps
  that quotient where 8192 − 0 > 0.
-/
import proofs.«139129_j69423851373142_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The program's operations in order: the integer zero, the nineteen of the variance function into the first
    call's buffers, the three of the selection function into the nested call's, and the eight that close. -/
abbrev ops : List (HloOp τ sig (Elt F)) :=
  [ nullary main_c (constantI S_ 32 0#32),
    TRef.nullary main_call0.cst (constant S_ .f32 0x00000000#32),
    TRef.binary (.of main_arg0) main_call0.cst main_call0.v0 (fun x v => Host.reduceAdd x v reducesTo_S8x8192x256_S8x256_d1 h_S_),
    TRef.unary main_call0.v0 main_call0.v1 (broadcastInDim S8x1x256 ![0, 2] bcast_S8x256_S8x1x256_0_2),
    TRef.nullary main_call0.cst_0 (constant S_ .f32 0x46000000#32),
    TRef.unary main_call0.cst_0 main_call0.v2 (broadcastInDim S8x1x256 ![] bcast_S_S8x1x256),
    TRef.binary main_call0.v1 main_call0.v2 main_call0.v3 Host.divf,
    TRef.unary main_call0.v3 main_call0.v4 (broadcastInDim S8x8192x256 ![0, 1, 2] bcast_S8x1x256_S8x8192x256_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x8192x256_S8x256_d1 h_S_),
    TRef.unary main_call0.v8 main_call0.v10 (broadcastInDim S8x256 ![] bcast_S_S8x256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S8x256 ![] bcast_S_S8x256),
    TRef.ternary main_call0.v12 main_call0.v11 main_call0.call0.v1 main_call0.call0.v2 (fun p a b => select (broadcastInDim S8x256 ![] bcast_S_S8x256 p) a b),
    nullary main_cst (constant S_ .f32 0x3DCCCCCD#32),
    nullary main_cst_0 (constant S_ .f32 0x40000000#32),
    binary main_cst main_cst_0 main_v1 (mulf : (⟨S_, .f32⟩ : BufTy).Contents (Elt F) → (⟨S_, .f32⟩ : BufTy).Contents (Elt F) → (⟨S_, .f32⟩ : BufTy).Contents (Elt F)),
    nullary main_cst_1 (constant S_ .f32 0x00000000#32),
    binary main_v0 main_cst_1 main_v2 ((fun x v => Host.reduceAdd x v reducesTo_S8x256_S_d0_1 h_S_) : (⟨S8x256, .f32⟩ : BufTy).Contents (Elt F) → (⟨S_, .f32⟩ : BufTy).Contents (Elt F) → (⟨S_, .f32⟩ : BufTy).Contents (Elt F)),
    nullary main_cst_2 (constant S_ .f32 0x45000000#32),
    binary main_v2 main_cst_2 main_v3 (Host.divf : (⟨S_, .f32⟩ : BufTy).Contents (Elt F) → (⟨S_, .f32⟩ : BufTy).Contents (Elt F) → (⟨S_, .f32⟩ : BufTy).Contents (Elt F)),
    binary main_v1 main_v3 main_v4 (mulf : (⟨S_, .f32⟩ : BufTy).Contents (Elt F) → (⟨S_, .f32⟩ : BufTy).Contents (Elt F) → (⟨S_, .f32⟩ : BufTy).Contents (Elt F)) ]

set_option maxRecDepth 1024 in
/-- The entry point is that straight line: the two functions unfolded at their calls and sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., nullary_bufs_sub ..,
    nullary_bufs_sub .., binary_bufs_sub .., nullary_bufs_sub .., binary_bufs_sub .., nullary_bufs_sub .., binary_bufs_sub ..,
    binary_bufs_sub ..⟩

/-- The variance array as the program computes it from the input array. -/
def variance (x : FVec F S8x8192x256 .f32) : FVec F S8x256 .f32 :=
  select
    (broadcastInDim S8x256 ![] bcast_S_S8x256
      (cmpf (F := F) .ogt (subf (constant S_ .f32 0x46000000#32) (sitofp .f32 (constantI S_ 32 0#32))) (constant S_ .f32 0x00000000#32)))
    (Host.divf
      (Host.reduceAdd
        (mulf
          (subf x (broadcastInDim S8x8192x256 ![0, 1, 2] bcast_S8x1x256_S8x8192x256_0_1_2
            (Host.divf (broadcastInDim S8x1x256 ![0, 2] bcast_S8x256_S8x1x256_0_2
                (Host.reduceAdd x (constant S_ .f32 0x00000000#32) reducesTo_S8x8192x256_S8x256_d1 h_S_))
              (broadcastInDim S8x1x256 ![] bcast_S_S8x1x256 (constant S_ .f32 0x46000000#32)))))
          (subf x (broadcastInDim S8x8192x256 ![0, 1, 2] bcast_S8x1x256_S8x8192x256_0_1_2
            (Host.divf (broadcastInDim S8x1x256 ![0, 2] bcast_S8x256_S8x1x256_0_2
                (Host.reduceAdd x (constant S_ .f32 0x00000000#32) reducesTo_S8x8192x256_S8x256_d1 h_S_))
              (broadcastInDim S8x1x256 ![] bcast_S_S8x1x256 (constant S_ .f32 0x46000000#32))))))
        (constant S_ .f32 0x00000000#32) reducesTo_S8x8192x256_S8x256_d1 h_S_)
      (broadcastInDim S8x256 ![] bcast_S_S8x256
        (subf (constant S_ .f32 0x46000000#32) (sitofp .f32 (constantI S_ 32 0#32)))))
    (broadcastInDim S8x256 ![] bcast_S_S8x256 (id (constant S_ .f32 0x7FC00000#32)))

/-- The closing map: the product of the two scale literals times the quotient by 2048 of zero plus the sum of
    all entries. -/
def closing (v : FVec F S8x256 .f32) : FVec F S_ .f32 :=
  mulf (mulf (constant S_ .f32 0x3DCCCCCD#32) (constant S_ .f32 0x40000000#32))
    (Host.divf (Host.reduceAdd v (constant S_ .f32 0x00000000#32) reducesTo_S8x256_S_d0_1 h_S_) (constant S_ .f32 0x45000000#32))

/-- On every device, from any memory with zero counters: every weakly fair execution of the entry point terminates
    with the result at the closing map of the variance array of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = closing (variance (m ((c.tc : Thread nD τ).loc main_arg0)))
      ∧ r.2.mem ((c.tc : Thread nD τ).loc main_arg0) = m ((c.tc : Thread nD τ).loc main_arg0) :=
  (θ_run defs _ _).mono (fun _ h c => ⟨(h c main_v4).trans (by after_results; rfl),
      (h c main_arg0).trans (by after_results)⟩)
    (run_seq scopedRefs_eq scopedSems_eq defs main (fun _ => ops) main_eq (fun _ => ops_sub) m ρ)

end Cert.ReferenceIdeal.Straight

end
-- ==== Proof.Spec.lean ====
/-
  The mathematics both programs compute, stated once over the extended reals, with no program in sight.

  For an array x of shape [8, 8192, 256] and a column (b, c), write S = Σ_s x[b,s,c] and Q = Σ_s x[b,s,c]².
  One program forms the biased variance of the column as Q/n − (S/n)², the other as Σ_s (x[b,s,c] − S/n)² / n,
  with n the float 8192.0, which is exactly the number of terms of the sums. On real numbers the two agree:
  expanding the square gives Q − 2(S/n)S + N(S/n)², and N = n. On the extended reals the expansion needs the
  entries to be real (distributivity fails at infinities), which is the one place finiteness of the input is used.
  Both programs then apply the same closing map to the [8, 256] array of variances:
  (0.1 · 2) · ((0 + Σ over all entries) / 2048).
-/
import Idealize.ShloMosaic.PureOps.Ideal
import Idealize.ShloMosaic.PureOps.Ideal.Laws
import Idealize.ShloMosaic.Lib.ValueIdx

noncomputable section

namespace Cert.PhaseVar

open Idealize.ShloMosaic Idealize.ShloMosaic.ValueIdx
open scoped BigOperators

/-- The input's shape, the shape of one value per column, and the scalar shape. -/
abbrev SX : Shape := ⟨3, ![8, 8192, 256]⟩
abbrev SM : Shape := ⟨2, ![8, 256]⟩
abbrev S0 : Shape := ⟨0, ![]⟩

/-! ## The float literals that matter, as extended reals -/

/-- The pattern of 8192.0 denotes the real number 8192 = 2¹³: the divisor equals the number of summands. -/
theorem ofBits_8192 : Ideal.ofBits .f32 0x46000000#32 = ((8192 : ℝ) : EReal) := by
  simp [Ideal.ofBits, Ideal.ieee, -EReal.coe_mul]; norm_num

/-- The integer zero converted to a float is the real zero. -/
theorem sitofp_zero : (((0#32 : BitVec 32).toInt : ℝ) : EReal) = 0 := by
  simp

/-! ## Sums of reals inside the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The variance of a real column, two ways -/

/-- For N real numbers with sum S and N ≠ 0: the mean of the squared deviations from S/N is the mean of the
    squares less the square of the mean. -/
theorem real_var {N : ℕ} (hN : (N : ℝ) ≠ 0) (f : Fin N → ℝ) :
    (∑ k, (f k - (∑ j, f j) * (1 / (N : ℝ))) * (f k - (∑ j, f j) * (1 / (N : ℝ)))) * (1 / (N : ℝ))
      = (∑ k, f k * f k) * (1 / (N : ℝ)) - ((∑ j, f j) * (1 / (N : ℝ))) * ((∑ j, f j) * (1 / (N : ℝ))) := by
  generalize hS : (∑ j, f j) = S
  have h1 : ∑ k, (f k - S * (1 / (N : ℝ))) * (f k - S * (1 / (N : ℝ)))
      = (∑ k, f k * f k) - 2 * (S * (1 / (N : ℝ))) * S + N * ((S * (1 / (N : ℝ))) * (S * (1 / (N : ℝ)))) := by
    have e : ∀ k, (f k - S * (1 / (N : ℝ))) * (f k - S * (1 / (N : ℝ)))
        = f k * f k - 2 * (S * (1 / (N : ℝ))) * f k + (S * (1 / (N : ℝ))) * (S * (1 / (N : ℝ))) := fun k => by ring
    simp only [e, Finset.sum_add_distrib, Finset.sum_sub_distrib, ← Finset.mul_sum, hS, Finset.sum_const,
      Finset.card_univ, Fintype.card_fin, nsmul_eq_mul]
    ring
  rw [h1]
  field_simp
  ring

/-- The same on the extended reals, for a column of 8192 entries that are all real, with the quotients taken by
    the extended reals' division by the real 8192. -/
theorem var_two_ways (g : Fin 8192 → EReal) (hg : ∀ k, ∃ r : ℝ, g k = (r : EReal)) :
    Ideal.div (∑ k, (g k - Ideal.div (∑ j, g j) ((8192 : ℝ) : EReal)) * (g k - Ideal.div (∑ j, g j) ((8192 : ℝ) : EReal)))
        ((8192 : ℝ) : EReal)
      = Ideal.div (∑ k, g k * g k) ((8192 : ℝ) : EReal)
        - Ideal.div (∑ j, g j) ((8192 : ℝ) : EReal) * Ideal.div (∑ j, g j) ((8192 : ℝ) : EReal) := by
  choose f hf using hg
  obtain rfl : g = fun k => (f k : EReal) := funext hf
  have h8 : (8192 : ℝ) ≠ 0 := by norm_num
  simp only [Ideal.div_coe h8, ← coe_sum, ← EReal.coe_mul, ← EReal.coe_sub]
  have := real_var (N := 8192) (by norm_num) f
  norm_num at this
  exact congrArg _ (by norm_num; linarith [this])

end Cert.PhaseVar

end
-- ==== Proof.RefValue.lean ====
/-
  The reference's variance array read at one column (b, c), when every entry of the input is real.
  The column sum S = Σ_s x[b,s,c] is divided by 8192 and broadcast back over s; the deviations x[b,s,c] − S/8192
  are squared and summed over s; that sum is divided by 8192 − 0, and the selection keeps the quotient because
  8192 − 0 > 0. By the identity for a real column this is Q/8192 − (S/8192)², with Q = Σ_s x[b,s,c]².
-/
import proofs.«139129_j69423851373142_1_alg».proof.Proof.RefRun
import proofs.«139129_j69423851373142_1_alg».proof.Proof.Spec
import Idealize.ShloMosaic.Lib.Pipeline.Value
import Idealize.ShloMosaic.PureOps.Ideal.Laws
import Idealize.ShloMosaic.Lib.ValueIdx

noncomputable section

namespace Cert.ReferenceIdeal.Column

open Cert.ReferenceIdeal Idealize.ShloMosaic Idealize.ShloMosaic.ValueIdx
open scoped BigOperators

/-! ## The layout operations at an index -/

/-- A scalar broadcast to any shape reads the scalar everywhere. -/
theorem bcast_scalar {α : Type} {t : Shape} (h : S_.BroadcastsInDim t (![] : Fin 0 → Fin t.rank)) (v : S_.Idx → α) (j : t.Idx) :
    broadcastInDim t ![] h v j = v ix0 :=
  broadcastInDim_apply _ h v j ix0 fun a => a.elim0

/-- The [8, 256] array with a unit axis inserted in the middle reads (b, c) at (b, 0, c). -/
theorem bcast_keep {α : Type} (h : S8x256.BroadcastsInDim S8x1x256 (![0, 2] : Fin 2 → Fin S8x1x256.rank)) (v : S8x256.Idx → α)
    (b : Fin 8) (c : Fin 256) : broadcastInDim S8x1x256 ![0, 2] h v (ix3 b 0 c) = v (ix2 b c) :=
  broadcastInDim_apply _ h v (ix3 b 0 c) (ix2 b c) fun a => by
    match a with
    | ⟨0, _⟩ => rfl
    | ⟨1, _⟩ => rfl

/-- The [8, 1, 256] array broadcast over the middle axis reads (b, 0, c) at every (b, s, c). -/
theorem bcast_mid {α : Type} (h : S8x1x256.BroadcastsInDim S8x8192x256 (![0, 1, 2] : Fin 3 → Fin S8x8192x256.rank)) (v : S8x1x256.Idx → α)
    (b : Fin 8) (s : Fin 8192) (c : Fin 256) : broadcastInDim S8x8192x256 ![0, 1, 2] h v (ix3 b s c) = v (ix3 b 0 c) :=
  broadcastInDim_apply _ h v (ix3 b s c) (ix3 b 0 c) fun a => by
    match a with
    | ⟨0, _⟩ => rfl
    | ⟨1, _⟩ => rfl
    | ⟨2, _⟩ => rfl

/-- The index over (b, c) with s inserted on the summed axis is (b, s, c). -/
theorem lift_mid (h : S8x8192x256.Reduces [1] S8x256) (b : Fin 8) (c : Fin 256) (s : Fin 8192) :
    h.lift (ix2 b c) s = ix3 b s c :=
  funext fun a => Fin.ext (by match a with | ⟨0, _⟩ => rfl | ⟨1, _⟩ => rfl | ⟨2, _⟩ => rfl)

/-- The host's sum over the middle axis from the zero pattern, at (b, c): the sum over s of the entries (b, s, c). -/
theorem colsum_host (h' : S8x8192x256.ReducesTo [1] S8x256) (y : FVec Ideal S8x8192x256 .f32) (b : Fin 8) (c : Fin 256) :
    Ideal.hostReduceAdd h' y (Ideal.ofBits .f32 0x00000000#32) (ix2 b c) = ∑ s : Fin 8192, y (ix3 b s c) := by
  have h : S8x8192x256.Reduces [1] S8x256 := by decide
  rw [Ideal.hostReduceAdd_single h' h y _ (ix2 b c), Ideal.ofBits_zero_f32, zero_add]
  show (∑ s : Fin 8192, y (h.lift (ix2 b c) s)) = _
  exact Finset.sum_congr rfl fun s _ => congrArg y (lift_mid h b c s)

/-- 8192 − 0 exceeds 0. -/
theorem count_pos :
    FloatOps.cmpf (F := Ideal) (φ := .f32) .ogt
      (Ideal.ofBits .f32 0x46000000#32 - FloatOps.sitofp (F := Ideal) .f32 (0#32 : BitVec 32)) (Ideal.ofBits .f32 0x00000000#32) = 1#1 := by
  rw [Ideal.cmpf_def, Cert.PhaseVar.ofBits_8192, Ideal.ofBits_zero_f32]
  show Ideal.cmp .ogt (((8192 : ℝ) : EReal) - (((0#32 : BitVec 32).toInt : ℝ) : EReal)) 0 = 1#1
  rw [Cert.PhaseVar.sitofp_zero, sub_zero]
  show BitVec.ofBool (decide ((0 : EReal) < ((8192 : ℝ) : EReal))) = 1#1
  rw [decide_eq_true (by exact_mod_cast (by norm_num : (0 : ℝ) < 8192))]
  rfl

/-- 8192 − 0 is the real 8192. -/
theorem count_eq :
    Ideal.ofBits .f32 0x46000000#32 - FloatOps.sitofp (F := Ideal) .f32 (0#32 : BitVec 32) = ((8192 : ℝ) : EReal) := by
  rw [Cert.PhaseVar.ofBits_8192]
  show ((8192 : ℝ) : EReal) - (((0#32 : BitVec 32).toInt : ℝ) : EReal) = _
  rw [Cert.PhaseVar.sitofp_zero, sub_zero]

/-- The host's quotient and sum, entry by entry. -/
theorem hostDivf_apply {s : Shape} {φ : FTy} (a b : FVec Ideal s φ) (i : s.Idx) : Host.divf a b i = Ideal.div (a i) (b i) := rfl

theorem hostReduceAdd_apply {s t u : Shape} {axes : List (Fin s.rank)} (y : FVec Ideal s .f32) (init : u.Idx → Ideal .f32)
    (h : s.ReducesTo axes t) (hu : 0 < u.numel) (j : t.Idx) :
    Host.reduceAdd y init h hu j = Ideal.hostReduceAdd h y (init (Shape.Idx.first hu)) j := rfl

/-- 8192 − 0, as the scalar array the program forms, is the real 8192, and exceeds the scalar zero. -/
theorem count_vec :
    subf (constant (F := Ideal) S_ .f32 0x46000000#32) (sitofp .f32 (constantI S_ 32 0#32)) ix0 = ((8192 : ℝ) : EReal) := count_eq

theorem count_pos_vec :
    cmpf (F := Ideal) .ogt (subf (constant S_ .f32 0x46000000#32) (sitofp .f32 (constantI S_ 32 0#32)))
      (constant S_ .f32 0x00000000#32) ix0 = 1#1 := count_pos

/-! ## The variance at a column -/

/-- The reference's variance array at (b, c), for an input whose entries are real: Q/8192 − (S/8192)². -/
theorem variance_apply (x : FVec Ideal S8x8192x256 .f32) (hx : ∀ i, ∃ r : ℝ, x i = (r : EReal)) (b : Fin 8) (c : Fin 256) :
    Straight.variance (F := Ideal) x (ix2 b c)
      = Ideal.div (∑ s : Fin 8192, x (ix3 b s c) * x (ix3 b s c)) ((8192 : ℝ) : EReal)
        - Ideal.div (∑ s : Fin 8192, x (ix3 b s c)) ((8192 : ℝ) : EReal) * Ideal.div (∑ s : Fin 8192, x (ix3 b s c)) ((8192 : ℝ) : EReal) := by
  have hM : ∀ s : Fin 8192, (broadcastInDim S8x8192x256 ![0, 1, 2] Gen.bcast_S8x1x256_S8x8192x256_0_1_2
        (Host.divf (broadcastInDim S8x1x256 ![0, 2] Gen.bcast_S8x256_S8x1x256_0_2
            (Host.reduceAdd x (constant S_ .f32 0x00000000#32) Gen.reducesTo_S8x8192x256_S8x256_d1 Gen.h_S_))
          (broadcastInDim S8x1x256 ![] Gen.bcast_S_S8x1x256 (constant S_ .f32 0x46000000#32)))) (ix3 b s c)
      = Ideal.div (∑ s' : Fin 8192, x (ix3 b s' c)) ((8192 : ℝ) : EReal) := fun s => by
    rw [bcast_mid, hostDivf_apply, bcast_keep, bcast_scalar, constant_apply, Cert.PhaseVar.ofBits_8192,
      hostReduceAdd_apply, constant_apply, colsum_host]
  unfold Straight.variance
  rw [select_apply, bcast_scalar, count_pos_vec, select_one, hostDivf_apply, bcast_scalar, count_vec,
    hostReduceAdd_apply, constant_apply, colsum_host]
  refine Eq.trans (congrArg (fun q => Ideal.div q ((8192 : ℝ) : EReal))
    (Finset.sum_congr rfl (g := fun s => (x (ix3 b s c) - Ideal.div (∑ s' : Fin 8192, x (ix3 b s' c)) ((8192 : ℝ) : EReal))
      * (x (ix3 b s c) - Ideal.div (∑ s' : Fin 8192, x (ix3 b s' c)) ((8192 : ℝ) : EReal))) fun s _ => ?_)) ?_
  · rw [mulf_apply, subf_apply, hM s]
  · exact Cert.PhaseVar.var_two_ways (fun s => x (ix3 b s c)) fun s => hx _

end Cert.ReferenceIdeal.Column

end
-- ==== Proof.KernelArrays.lean ====
/-
  What the kernel leaves in its two output arrays. The grid has eight points, one per batch row b. At point b the
  body loads the whole [1, 8192, 256] block of row b, drops the unit axis, sums it over the 8192 axis (and, for the
  second output, sums its elementwise square the same way), and stores each [256] vector as the [1, 1, 256] block
  (b, 0, ·) of its output. Every index (b, 0, c) of an output lies in point b's block, so after the run the first
  array holds the column sums S[b,0,c] = Σ_s x[b,s,c] and the second the column sums of squares.
-/
import proofs.«139129_j69423851373142_1_alg».proof.Proof.Gen.KernelIdeal.Frame
import Idealize.ShloMosaic.Lib.Pipeline.Value
import Idealize.ShloMosaic.PureOps.Ideal.Laws
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The two whole-array functions -/

/-- The sums over the middle axis, kept as a unit axis. -/
def sums (x : FVec Ideal S8x8192x256 .f32) : FVec Ideal S8x1x256 .f32 :=
  fun i => ∑ s : Fin 8192, x (ix3 (i 0) s (i 2))

/-- The sums of squares over the middle axis, kept as a unit axis. -/
def sumsqs (x : FVec Ideal S8x8192x256 .f32) : FVec Ideal S8x1x256 .f32 :=
  fun i => ∑ s : Fin 8192, x (ix3 (i 0) s (i 2)) * x (ix3 (i 0) s (i 2))

/-! ## The body's arithmetic at an index -/

theorem hz3 : (![0, 0, 0] : Fin 3 → Nat) = fun _ => 0 := funext fun a => by fin_cases a <;> rfl

/-- Dropping the block's leading unit axis: entry (s, c) is the block's entry (0, s, c). -/
theorem rows_apply (X : FVec Ideal S1x8192x256 .f32) (s : Fin 8192) (c : Fin 256) :
    k0_pay1 (F := Ideal) X (ix2 s c) = X (ix3 0 s c) := by
  unfold k0_pay1
  refine shapeCast_apply _ _ (ix2 s c) (ix3 0 s c) ?_
  rw [Shape.rowMajor_val_two, Shape.rowMajor_val_three]
  show ((0 : Fin 1).val * 8192 + s.val) * 256 + c.val = s.val * 256 + c.val
  simp

/-- The index over lane c with s inserted on the summed axis is (s, c). -/
theorem lift_col (h : S8192x256.Reduces [0] S256) (c : Fin 256) (s : Fin 8192) : h.lift (ix1 c) s = ix2 s c :=
  funext fun a => Fin.ext (by match a with | ⟨0, _⟩ => rfl | ⟨1, _⟩ => rfl)

/-- The first stored vector at lane c is the sum over s of the block's entries (0, s, c). -/
theorem sum_apply (X : FVec Ideal S1x8192x256 .f32) (c : Fin 256) :
    k0_pay2 (F := Ideal) X (ix3 0 0 c) = ∑ s : Fin 8192, X (ix3 0 s c) := by
  unfold k0_pay2
  refine (shapeCast_apply _ _ (ix3 0 0 c) (ix1 c) ?_).trans ?_
  · rw [Shape.rowMajor_val_one, Shape.rowMajor_val_three]
    show c.val = ((0 : Fin 1).val * 1 + (0 : Fin 1).val) * 256 + c.val
    simp
  refine (Ideal.multiReduction_add_single (k0_pay1 (F := Ideal) X) 0x00000000#32 reduces_S8192x256_S256 (.inl rfl) rfl (ix1 c)).trans ?_
  show (∑ s : Fin 8192, k0_pay1 (F := Ideal) X (reduces_S8192x256_S256.lift (ix1 c) s)) = ∑ s : Fin 8192, X (ix3 0 s c)
  exact Finset.sum_congr rfl fun s _ => (congrArg (k0_pay1 (F := Ideal) X) (lift_col _ c s)).trans (rows_apply X s c)

/-- The second stored vector at lane c is the sum over s of the squares of the block's entries (0, s, c). -/
theorem sumsq_apply (X : FVec Ideal S1x8192x256 .f32) (c : Fin 256) :
    k0_pay3 (F := Ideal) X (ix3 0 0 c) = ∑ s : Fin 8192, X (ix3 0 s c) * X (ix3 0 s c) := by
  unfold k0_pay3
  refine (shapeCast_apply _ _ (ix3 0 0 c) (ix1 c) ?_).trans ?_
  · rw [Shape.rowMajor_val_one, Shape.rowMajor_val_three]
    show c.val = ((0 : Fin 1).val * 1 + (0 : Fin 1).val) * 256 + c.val
    simp
  refine (Ideal.multiReduction_add_single (mulf (k0_pay1 (F := Ideal) X) (k0_pay1 (F := Ideal) X)) 0x00000000#32 reduces_S8192x256_S256 (.inl rfl) rfl (ix1 c)).trans ?_
  show (∑ s : Fin 8192, mulf (k0_pay1 (F := Ideal) X) (k0_pay1 (F := Ideal) X) (reduces_S8192x256_S256.lift (ix1 c) s))
    = ∑ s : Fin 8192, X (ix3 0 s c) * X (ix3 0 s c)
  refine Finset.sum_congr rfl fun s _ => ?_
  refine (congrArg (mulf (k0_pay1 (F := Ideal) X) (k0_pay1 (F := Ideal) X)) (lift_col _ c s)).trans ?_
  show k0_pay1 (F := Ideal) X (ix2 s c) * k0_pay1 (F := Ideal) X (ix2 s c) = _
  rw [rows_apply]

/-- An index of a [1, 1, 256] block is (0, 0, its lane). -/
theorem blockIdx_eq (j : S1x1x256.Idx) : j = ix3 0 0 (j 2) := by
  funext a
  match a with
  | ⟨0, _⟩ => exact Fin.ext (Nat.lt_one_iff.mp (show (j 0).val < 1 from (j 0).isLt))
  | ⟨1, _⟩ => exact Fin.ext (Nat.lt_one_iff.mp (show (j 1).val < 1 from (j 1).isLt))
  | ⟨2, _⟩ => rfl

/-- At a point whose input block is row b of the array A, the first stored block at j is the column sum of A at
    the output index i = (b, ·, lane of j). -/
theorem sum_point (X : FVec Ideal S1x8192x256 .f32) (A : FVec Ideal S8x8192x256 .f32)
    (j : S1x1x256.Idx) (i : S8x1x256.Idx) (hi2 : (i 2).val = (j 2).val)
    (hX : ∀ (s : Fin 8192) (c : Fin 256), X (ix3 0 s c) = A (ix3 (i 0) s c)) :
    k0_pay2 (F := Ideal) X j = sums A i := by
  obtain ⟨l, rfl⟩ : ∃ l : Fin 256, j = ix3 0 0 l := ⟨j 2, blockIdx_eq j⟩
  refine (sum_apply X l).trans ?_
  unfold sums
  refine Finset.sum_congr rfl fun s _ => (hX s l).trans (congrArg A ?_)
  funext a
  match a with
  | ⟨0, _⟩ => rfl
  | ⟨1, _⟩ => rfl
  | ⟨2, _⟩ => exact Fin.ext hi2.symm

theorem sumsq_point (X : FVec Ideal S1x8192x256 .f32) (A : FVec Ideal S8x8192x256 .f32)
    (j : S1x1x256.Idx) (i : S8x1x256.Idx) (hi2 : (i 2).val = (j 2).val)
    (hX : ∀ (s : Fin 8192) (c : Fin 256), X (ix3 0 s c) = A (ix3 (i 0) s c)) :
    k0_pay3 (F := Ideal) X j = sumsqs A i := by
  obtain ⟨l, rfl⟩ : ∃ l : Fin 256, j = ix3 0 0 l := ⟨j 2, blockIdx_eq j⟩
  refine (sumsq_apply X l).trans ?_
  unfold sumsqs
  have e : ∀ s : Fin 8192, X (ix3 0 s l) = A (ix3 (i 0) s (i 2)) := fun s => (hX s l).trans (congrArg A (by
    funext a
    match a with
    | ⟨0, _⟩ => rfl
    | ⟨1, _⟩ => rfl
    | ⟨2, _⟩ => exact Fin.ext hi2.symm))
  exact Finset.sum_congr rfl fun s _ => by rw [e s]

/-! ## The windows' blocks on the grid -/

variable (m : (ℓ : Loc nD τ sig) → Buf (Elt Ideal) ℓ)

/-- At point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point t is row t of the input array: its entry (0, s, c) is the array's entry (b, s, c) for
    any b with value t. -/
theorem in_block (c : Dev nD) (t : Fin cfg0.N) (b : Fin 8) (hb : b.val = t.val) (s : Fin 8192) (l : Fin 256) :
    iblk m c 0 t (ix3 0 s l) = V m c main_arg0 (ix3 b s l) := by
  obtain ⟨e0, e1, e2, -⟩ := idx_facts t
  show V m c main_arg0 (((cfg0.win 0).blk t).view.emb (ix3 0 s l)) = V m c main_arg0 (ix3 b s l)
  refine congrArg _ (funext fun a => Fin.ext ?_)
  match a with
  | ⟨0, _⟩ => show win0_0.index t (0 : Fin 3) * 1 + 1 * (0 : Fin 1).val = b.val; simp; omega
  | ⟨1, _⟩ => show win0_0.index t (1 : Fin 3) * 8192 + 1 * s.val = s.val; omega
  | ⟨2, _⟩ => show win0_0.index t (2 : Fin 3) * 256 + 1 * l.val = l.val; omega

/-! ## What each point writes back, and the arrays after the run -/

/-- Point t writes back to the first output the block t of the column sums of the input array. -/
theorem flushed1_eq (c : Dev nD) (t : Fin cfg0.N) :
    (dats m 0 c).flushed 1 t = ((cfg0.win 1).blk t).view.read (Elt Ideal) (sums (V m c main_arg0)) := by
  show (cfg0.win 1).cut (grid0.coords t) ((dats m 0 c).after 1 t) = _
  rw [after0_1]
  unfold out0_1
  rw [View.canon_unit_zero hz3]
  simp only [View.ld_unit_zero (S := S1x8192x256) hz3]
  obtain ⟨-, -, -, e0, e1, e2, -⟩ := idx_facts t
  funext j
  show k0_pay2 (F := Ideal) (iblk m c 0 t) j = sums (V m c main_arg0) (((cfg0.win 1).blk t).view.emb j)
  have h0 : ((((cfg0.win 1).blk t).view.emb j) 0).val = t.val := by
    show win0_1.index t (0 : Fin 3) * 1 + 1 * (j 0).val = t.val
    have : (j 0).val < 1 := (j 0).isLt
    omega
  have h2 : ((((cfg0.win 1).blk t).view.emb j) 2).val = (j 2).val := by
    show win0_1.index t (2 : Fin 3) * 256 + 1 * (j 2).val = (j 2).val
    omega
  exact sum_point (iblk m c 0 t) (V m c main_arg0) j _ h2 fun s l => in_block m c t _ h0 s l

/-- Point t writes back to the second output the block t of the column sums of squares. -/
theorem flushed2_eq (c : Dev nD) (t : Fin cfg0.N) :
    (dats m 0 c).flushed 2 t = ((cfg0.win 2).blk t).view.read (Elt Ideal) (sumsqs (V m c main_arg0)) := by
  show (cfg0.win 2).cut (grid0.coords t) ((dats m 0 c).after 2 t) = _
  rw [after0_2]
  unfold out0_2
  rw [View.canon_unit_zero hz3]
  simp only [View.ld_unit_zero (S := S1x8192x256) hz3]
  obtain ⟨-, -, -, -, -, -, e0, e1, e2⟩ := idx_facts t
  funext j
  show k0_pay3 (F := Ideal) (iblk m c 0 t) j = sumsqs (V m c main_arg0) (((cfg0.win 2).blk t).view.emb j)
  have h0 : ((((cfg0.win 2).blk t).view.emb j) 0).val = t.val := by
    show win0_2.index t (0 : Fin 3) * 1 + 1 * (j 0).val = t.val
    have : (j 0).val < 1 := (j 0).isLt
    omega
  have h2 : ((((cfg0.win 2).blk t).view.emb j) 2).val = (j 2).val := by
    show win0_2.index t (2 : Fin 3) * 256 + 1 * (j 2).val = (j 2).val
    omega
  exact sumsq_point (iblk m c 0 t) (V m c main_arg0) j _ h2 fun s l => in_block m c t _ h0 s l

/-- An index of an output array is in point t's block iff each coordinate is in the block's range. -/
theorem mem_blk1 (t : Fin cfg0.N) (i : S8x1x256.Idx) :
    i ∈ ((cfg0.win 1).blk t).view.set ↔ ∀ a : Fin 3, win0_1.index t a * S1x1x256.size a ≤ (i a).val ∧ (i a).val < win0_1.index t a * S1x1x256.size a + S1x1x256.size a := by
  show i ∈ ((View.whole main_v0_0).slice (win0_1.rect t)).set ↔ _
  rw [View.set_slice_whole, Rect.mem_set_unit]
  exact Iff.rfl

theorem mem_blk2 (t : Fin cfg0.N) (i : S8x1x256.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v0_1).slice (win0_2.rect t)).set ↔ _
  rw [View.set_slice_whole, Rect.mem_set_unit]
  exact Iff.rfl

/-- Index (b, 0, c) of the first output lies in the block of the point b. -/
theorem cover1 (i : S8x1x256.Idx) : ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 256 := (i 2).isLt
  refine ⟨⟨(i 0).val, by rw [show cfg0.N = grid0.N from rfl, N_0]; exact hi0⟩, flush0_1 _, ?_⟩
  rw [mem_blk1]
  obtain ⟨-, -, -, e0, e1, e2, -⟩ := idx_facts ⟨(i 0).val, by rw [show cfg0.N = grid0.N from rfl, N_0]; exact hi0⟩
  intro a
  match a with
  | ⟨0, _⟩ => show win0_1.index _ (0 : Fin 3) * 1 ≤ (i 0).val ∧ (i 0).val < win0_1.index _ (0 : Fin 3) * 1 + 1; simp only at e0; omega
  | ⟨1, _⟩ => show win0_1.index _ (1 : Fin 3) * 1 ≤ (i 1).val ∧ (i 1).val < win0_1.index _ (1 : Fin 3) * 1 + 1; omega
  | ⟨2, _⟩ => show win0_1.index _ (2 : Fin 3) * 256 ≤ (i 2).val ∧ (i 2).val < win0_1.index _ (2 : Fin 3) * 256 + 256; omega

theorem cover2 (i : S8x1x256.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 256 := (i 2).isLt
  refine ⟨⟨(i 0).val, by rw [show cfg0.N = grid0.N from rfl, N_0]; exact hi0⟩, flush0_2 _, ?_⟩
  rw [mem_blk2]
  obtain ⟨-, -, -, -, -, -, e0, e1, e2⟩ := idx_facts ⟨(i 0).val, by rw [show cfg0.N = grid0.N from rfl, N_0]; exact hi0⟩
  intro a
  match a with
  | ⟨0, _⟩ => show win0_2.index _ (0 : Fin 3) * 1 ≤ (i 0).val ∧ (i 0).val < win0_2.index _ (0 : Fin 3) * 1 + 1; simp only at e0; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 256 ≤ (i 2).val ∧ (i 2).val < win0_2.index _ (2 : Fin 3) * 256 + 256; omega

/-- After the run the first output array is the column sums of the input array, -/
theorem final1 (c : Dev nD) : (dats m 0 c).arrAt 1 cfg0.N = sums (V m c main_arg0) :=
  (dats m 0 c).arrAt_eq_of_cover 1 (sums (V m c main_arg0)) (fun t _ => flushed1_eq m c t) cover1

/-- and the second the column sums of squares. -/
theorem final2 (c : Dev nD) : (dats m 0 c).arrAt 2 cfg0.N = sumsqs (V m c main_arg0) :=
  (dats m 0 c).arrAt_eq_of_cover 2 (sumsqs (V m c main_arg0)) (fun t _ => flushed2_eq m c t) cover2

end Cert.KernelIdeal.Arrays

end
-- ==== Proof.KernelRun.lean ====
/-
  The kernel's program run from any memory. The launched region leaves the column sums S and the column sums of
  squares Q in its two output arrays; the eighteen host operations after it drop the unit axis of each, divide both
  by 8192, form Q/8192 − (S/8192)·(S/8192) entry by entry, and apply the closing map
  (0.1 · 2) · ((0 + Σ over all entries) / 2048). Every weakly fair execution terminates with the result buffer at
  that value and the argument unchanged.
-/
import proofs.«139129_j69423851373142_1_alg».proof.Proof.Gen.KernelIdeal.Frame
import proofs.«139129_j69423851373142_1_alg».proof.Proof.KernelArrays
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

/-- The variance array from the two arrays the region leaves: with the unit axis dropped, the second over 8192
    less the square of the first over 8192. -/
def variance (A1 A2 : FVec Ideal S8x1x256 .f32) : FVec Ideal S8x256 .f32 :=
  subf
    (Host.divf (shapeCast S8x256 A2 shapeCasts_S8x1x256_S8x256)
      (broadcastInDim S8x256 ![] bcast_S_S8x256 (constant (F := Ideal) S_ .f32 0x46000000#32)))
    (mulf
      (Host.divf (shapeCast S8x256 A1 shapeCasts_S8x1x256_S8x256)
        (broadcastInDim S8x256 ![] bcast_S_S8x256 (constant (F := Ideal) S_ .f32 0x46000000#32)))
      (Host.divf (shapeCast S8x256 A1 shapeCasts_S8x1x256_S8x256)
        (broadcastInDim S8x256 ![] bcast_S_S8x256 (constant (F := Ideal) S_ .f32 0x46000000#32))))

/-- The closing map: the product of the two scale literals times the quotient by 2048 of zero plus the sum of
    all entries. -/
def closing (v : FVec Ideal S8x256 .f32) : FVec Ideal S_ .f32 :=
  mulf (mulf (constant (F := Ideal) S_ .f32 0x3DCCCCCD#32) (constant (F := Ideal) S_ .f32 0x40000000#32))
    (Host.divf (Host.reduceAdd v (constant (F := Ideal) S_ .f32 0x00000000#32) reducesTo_S8x256_S_d0_1 h_S_)
      (constant (F := Ideal) S_ .f32 0x45000000#32))

variable (m : (ℓ : Loc nD τ sig) → Buf (Elt Ideal) ℓ) (ρ : Dev nD → PrngReg)

/-- The host operations after the region, read at the result buffer over the arrays the region leaves. -/
theorem tail_eq (c : Dev nD) :
    Pipeline.afterTail₀ cfgs (dats m) 0 (V0 m) [hostOps1] c main_v12
      = closing (variance ((dats m 0 c).arrAt 1 cfg0.N) ((dats m 0 c).arrAt 2 cfg0.N)) := by
  have e1 : Pipeline.withArrays (cfgs 0).spec c (V0 m c) (fun w => (dats m 0 c).arrAt w (cfgs 0).N) (Proc.devRef .tc main_v0_0)
      = (dats m 0 c).arrAt 1 cfg0.N :=
    Pipeline.withArrays_arr spec0 launch0.win.arr_inj c (V0 m c) (fun w => (dats m 0 c).arrAt w (cfgs 0).N) 1
  have e2 : Pipeline.withArrays (cfgs 0).spec c (V0 m c) (fun w => (dats m 0 c).arrAt w (cfgs 0).N) (Proc.devRef .tc main_v0_1)
      = (dats m 0 c).arrAt 2 cfg0.N :=
    Pipeline.withArrays_arr spec0 launch0.win.arr_inj c (V0 m c) (fun w => (dats m 0 c).arrAt w (cfgs 0).N) 2
  unfold Pipeline.afterTail₀
  show StableHlo.after hostOps1 _ (Proc.devRef .tc main_v12) = _
  after_results
  rw [e1, e2]
  rfl

/-- A buffer that is not scoped and is no window's array keeps, through the region, what the host lines give it. -/
theorem v12_rest : main_v12 ∈ Pipeline.restRefs sig (cfgs 0).spec :=
  Pipeline.mem_restRefs_of main_v12 rfl (by decide)

/-- On every device, from any memory with zero counters: every weakly fair execution of the entry point terminates
    with the result at the closing map of the variance formed from the column sums and the column sums of squares
    of the argument, and the argument unchanged. -/
theorem run : θ_run defs (onTc (τ := τ) (main (F := Ideal))) ⟨m, fun _ => 0, ρ⟩ fun r => ∀ c : Dev nD,
      r.2.mem ((c.tc : Thread nD τ).loc main_v12)
        = closing (variance (Arrays.sums (m ((c.tc : Thread nD τ).loc main_arg0))) (Arrays.sumsqs (m ((c.tc : Thread nD τ).loc main_arg0))))
      ∧ r.2.mem ((c.tc : Thread nD τ).loc main_arg0) = m ((c.tc : Thread nD τ).loc main_arg0) :=
  (θ_run defs _ _).mono (fun r h c => ⟨by
      rw [(h c).2 main_v12 v12_rest, tail_eq, Arrays.final1, Arrays.final2, V_main_arg0],
      ((h c).1 0).trans (((dats m 0 c).arrAt_in 0 rfl _).trans ((A_eq m c 0).trans (V_main_arg0 m c)))⟩)
    (run_main m ρ)

end Cert.KernelIdeal.Whole

end
-- ==== Proof.KernelValue.lean ====
/-
  The kernel program's variance array read at one column (b, c): dropping the unit axis of the two arrays the region
  leaves reads them at (b, 0, c), where they hold S = Σ_s x[b,s,c] and Q = Σ_s x[b,s,c]²; the host lines then form
  Q/8192 − (S/8192)·(S/8192).
-/
import proofs.«139129_j69423851373142_1_alg».proof.Proof.KernelRun
import proofs.«139129_j69423851373142_1_alg».proof.Proof.Spec
import Idealize.ShloMosaic.Lib.Pipeline.Value
import Idealize.ShloMosaic.Lib.ValueIdx

noncomputable section

namespace Cert.KernelIdeal.Column

open Cert.KernelIdeal Idealize.ShloMosaic Idealize.ShloMosaic.ValueIdx
open scoped BigOperators

/-- An [8, 1, 256] array with its unit axis dropped reads (b, 0, c) at (b, c). -/
theorem squeeze_apply {α : Type} (A : S8x1x256.Idx → α) (h : S8x1x256.ShapeCasts S8x256) (b : Fin 8) (c : Fin 256) :
    shapeCast S8x256 A h (ix2 b c) = A (ix3 b 0 c) := by
  refine shapeCast_apply A h (ix2 b c) (ix3 b 0 c) ?_
  rw [Shape.rowMajor_val_three, Shape.rowMajor_val_two]
  show (b.val * 1 + (0 : Fin 1).val) * 256 + c.val = b.val * 256 + c.val
  simp

/-- The kernel program's variance array at (b, c): Q/8192 − (S/8192)². -/
theorem variance_apply (x : FVec Ideal S8x8192x256 .f32) (b : Fin 8) (c : Fin 256) :
    Whole.variance (Arrays.sums x) (Arrays.sumsqs x) (ix2 b c)
      = Ideal.div (∑ s : Fin 8192, x (ix3 b s c) * x (ix3 b s c)) ((8192 : ℝ) : EReal)
        - Ideal.div (∑ s : Fin 8192, x (ix3 b s c)) ((8192 : ℝ) : EReal) * Ideal.div (∑ s : Fin 8192, x (ix3 b s c)) ((8192 : ℝ) : EReal) := by
  unfold Whole.variance
  show Ideal.div (shapeCast S8x256 (Arrays.sumsqs x) _ (ix2 b c)) (Ideal.ofBits .f32 0x46000000#32)
      - Ideal.div (shapeCast S8x256 (Arrays.sums x) _ (ix2 b c)) (Ideal.ofBits .f32 0x46000000#32)
        * Ideal.div (shapeCast S8x256 (Arrays.sums x) _ (ix2 b c)) (Ideal.ofBits .f32 0x46000000#32) = _
  rw [squeeze_apply, squeeze_apply, Cert.PhaseVar.ofBits_8192]
  rfl

end Cert.KernelIdeal.Column

end
-- ==== Proof.lean ====
/-
  The kernel computes, for an input x of shape [8, 8192, 256], the column sums S[b,c] = Σ_s x[b,s,c] and the column
  sums of squares Q[b,c] = Σ_s x[b,s,c]² on the chip, and then on the host the scalar
      (0.1 · 2) · ((0 + Σ_{b,c} (Q/8192 − (S/8192)²)) / 2048).
  The reference computes the same scalar from the variance written as Σ_s (x[b,s,c] − S/8192)² / (8192 − 0), kept by a
  selection on 8192 − 0 > 0. The two variance arrays agree entry by entry when the input's entries are real, which
  the precondition gives; the closing map is the same in both programs. Each program's run is read back to these
  terms (the kernel's through the frame of its one launched region and the host lines after it, the reference's as a
  straight line of host operations), which also gives the three frame claims; no operation was rewritten in the
  idealized kernel, so the idealization claim is trivially true.
-/
import proofs.«139129_j69423851373142_1_alg».proof.Defs
import proofs.«139129_j69423851373142_1_alg».proof.Proof.Gen.Kernel
import proofs.«139129_j69423851373142_1_alg».proof.Proof.Gen.Kernel.Skeleton
import proofs.«139129_j69423851373142_1_alg».proof.Proof.Gen.Kernel.Launch
import proofs.«139129_j69423851373142_1_alg».proof.Proof.Gen.Kernel.Points
import proofs.«139129_j69423851373142_1_alg».proof.Proof.Gen.Kernel.Frame
import proofs.«139129_j69423851373142_1_alg».proof.Proof.Gen.KernelIdeal
import proofs.«139129_j69423851373142_1_alg».proof.Proof.Gen.KernelIdeal.Skeleton
import proofs.«139129_j69423851373142_1_alg».proof.Proof.Gen.KernelIdeal.Launch
import proofs.«139129_j69423851373142_1_alg».proof.Proof.Gen.KernelIdeal.Points
import proofs.«139129_j69423851373142_1_alg».proof.Proof.Gen.KernelIdeal.Frame
import proofs.«139129_j69423851373142_1_alg».proof.Proof.Gen.ReferenceIdeal
import proofs.«139129_j69423851373142_1_alg».proof.Proof.Gen.Pre_finite_inputs
import proofs.«139129_j69423851373142_1_alg».proof.Proof.Finite
import proofs.«139129_j69423851373142_1_alg».proof.Proof.RefRun
import proofs.«139129_j69423851373142_1_alg».proof.Proof.RefValue
import proofs.«139129_j69423851373142_1_alg».proof.Proof.KernelRun
import proofs.«139129_j69423851373142_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' closing maps are one function. -/
theorem closing_same (v : FVec Ideal Cert.KernelIdeal.S8x256 .f32) :
    Cert.ReferenceIdeal.Straight.closing (F := Ideal) v = Cert.KernelIdeal.Whole.closing v := rfl

/-- For an input whose entries are real the two programs' variance arrays are equal. -/
theorem variance_same (x : FVec Ideal Cert.KernelIdeal.S8x8192x256 .f32) (hx : ∀ i, ∃ r : ℝ, x i = (r : EReal)) :
    Cert.ReferenceIdeal.Straight.variance (F := Ideal) x
      = Cert.KernelIdeal.Whole.variance (Cert.KernelIdeal.Arrays.sums x) (Cert.KernelIdeal.Arrays.sumsqs x) := by
  funext i
  obtain ⟨b, c, rfl⟩ : ∃ (b : Fin 8) (c : Fin 256), i = ix2 b c := ⟨i 0, i 1, eq_ix2 i⟩
  exact (Cert.ReferenceIdeal.Column.variance_apply x hx b c).trans (Cert.KernelIdeal.Column.variance_apply x b c).symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Straight.run (F := Ideal) m ρ)

theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  rw [hagree c]
  exact (closing_same _).trans (congrArg Cert.KernelIdeal.Whole.closing
    (variance_same _ (Cert.PhaseVar.Finite.real_of_pre _ (hpre c))))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
